-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S4x8192x384 : Shape := ⟨3, ![4, 8192, 384]⟩
abbrev S384 : Shape := ⟨1, ![384]⟩
abbrev S768x384 : Shape := ⟨2, ![768, 384]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S4x8192x384 : S_.BroadcastsInDim S4x8192x384 (![] : Fin 0 → Fin S4x8192x384.rank)
  reducesTo_S4x8192x384_S_d0_1_2 : S4x8192x384.ReducesTo [0, 1, 2] S_
  bcast_S_S384 : S_.BroadcastsInDim S384 (![] : Fin 0 → Fin S384.rank)
  reducesTo_S384_S_d0 : S384.ReducesTo [0] S_
  bcast_S_S768x384 : S_.BroadcastsInDim S768x384 (![] : Fin 0 → Fin S768x384.rank)
  reducesTo_S768x384_S_d0_1 : S768x384.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768x384 .f32) (main_v13 : IVec S_ 1) (main_v16 : IVec S768x384 1) : IVec S_ 1 :=
  let main_c_5 : IVec S_ 1 := constantI S_ 1 1#1
  let main_v17 : IVec S_ 1 := (fun x v => Host.reduce IntOp.andi x v reducesTo_S768x384_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x384 .f32 := Host.absf main_arg5
  let main_cst_8 : FVec F S_ .f32 := constant S_ .f32 0x7F800000#32
  let main_v25 : FVec F S768x384 .f32 := broadcastInDim S768x384 ![] bcast_S_S768x384 main_cst_8
  let main_v26 : IVec S768x384 1 := cmpf .olt main_v24 main_v25
  let main_c_9 : IVec S_ 1 := constantI S_ 1 1#1
  let main_v27 : IVec S_ 1 := (fun x v => Host.reduce IntOp.andi x v reducesTo_S768x384_S_d0_1 h_S_) main_v26 main_c_9
  let main_v28 : IVec S_ 1 := andi main_v23 main_v27
  main_v28

def fn {F : FTy → Type} [FloatOps F] (main_arg0 : FVec F S4x8192x768 .f32) (main_arg1 : FVec F S4x8192x384 .f32) (main_arg2 : FVec F S384 .f32) (main_arg3 : FVec F S768x384 .f32) (main_arg4 : FVec F S768 .f32) (main_arg5 : FVec F S768x384 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S4x8192x384 .f32 := Host.absf main_arg1
  let main_cst_0 : FVec F S_ .f32 := constant S_ .f32 0x7F800000#32
  let main_v5 : FVec F S4x8192x384 .f32 := broadcastInDim S4x8192x384 ![] bcast_S_S4x8192x384 main_cst_0
  let main_v6 : IVec S4x8192x384 1 := cmpf .olt main_v4 main_v5
  let main_c_1 : IVec S_ 1 := constantI S_ 1 1#1
  let main_v7 : IVec S_ 1 := (fun x v => Host.reduce IntOp.andi x v reducesTo_S4x8192x384_S_d0_1_2 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S768x384 .f32 := Host.absf main_arg3
  let main_cst_4 : FVec F S_ .f32 := constant S_ .f32 0x7F800000#32
  let main_v15 : FVec F S768x384 .f32 := broadcastInDim S768x384 ![] bcast_S_S768x384 main_cst_4
  let main_v16 : IVec S768x384 1 := cmpf .olt main_v14 main_v15
  fn_part1 (F := F) main_arg4 main_arg5 main_v13 main_v16
-- ==== Kernel.lean ====
abbrev S4x8192x768 : Shape := ⟨3, ![4, 8192, 768]⟩
abbrev S4x8192x384 : Shape := ⟨3, ![4, 8192, 384]⟩
abbrev S384 : Shape := ⟨1, ![384]⟩
abbrev S768x384 : Shape := ⟨2, ![768, 384]⟩
abbrev S768 : Shape := ⟨1, ![768]⟩
abbrev S32768x768 : Shape := ⟨2, ![32768, 768]⟩
abbrev S32768x384 : Shape := ⟨2, ![32768, 384]⟩
abbrev S1x384 : Shape := ⟨2, ![1, 384]⟩
abbrev S1x768 : Shape := ⟨2, ![1, 768]⟩
abbrev S384x768 : Shape := ⟨2, ![384, 768]⟩
abbrev S512x768 : Shape := ⟨2, ![512, 768]⟩
abbrev S512x384 : Shape := ⟨2, ![512, 384]⟩
abbrev S512 : Shape := ⟨1, ![512]⟩
abbrev S512x1 : Shape := ⟨2, ![512, 1]⟩

abbrev nBuf : Space → Nat
  | .hbm => 16
  | .vmem => 10
  | .smem => 0
  | _ => 0

abbrev bufTy : (tb : Table) → Fin (tcTables nBuf tb) → BufTy
  | .hbm, ⟨0, _⟩ => ⟨S4x8192x768, .f32⟩
  | .hbm, ⟨1, _⟩ => ⟨S4x8192x384, .f32⟩
  | .hbm, ⟨2, _⟩ => ⟨S384, .f32⟩
  | .hbm, ⟨3, _⟩ => ⟨S768x384, .f32⟩
  | .hbm, ⟨4, _⟩ => ⟨S768, .f32⟩
  | .hbm, ⟨5, _⟩ => ⟨S768x384, .f32⟩
  | .hbm, ⟨6, _⟩ => ⟨S32768x768, .f32⟩
  | .hbm, ⟨7, _⟩ => ⟨S32768x384, .f32⟩
  | .hbm, ⟨8, _⟩ => ⟨S1x384, .f32⟩
  | .hbm, ⟨9, _⟩ => ⟨S1x768, .f32⟩
  | .hbm, ⟨10, _⟩ => ⟨S384x768, .f32⟩
  | .hbm, ⟨11, _⟩ => ⟨S384x768, .bf16⟩
  | .hbm, ⟨12, _⟩ => ⟨S384x768, .f32⟩
  | .hbm, ⟨13, _⟩ => ⟨S384x768, .bf16⟩
  | .hbm, ⟨14, _⟩ => ⟨S32768x768, .f32⟩
  | .hbm, ⟨15, _⟩ => ⟨S4x8192x768, .f32⟩
  | .local _ .vmem, ⟨0, _⟩ => ⟨S512x768, .f32⟩
  | .local _ .vmem, ⟨1, _⟩ => ⟨S512x768, .f32⟩
  | .local _ .vmem, ⟨2, _⟩ => ⟨S512x384, .f32⟩
  | .local _ .vmem, ⟨3, _⟩ => ⟨S512x384, .f32⟩
  | .local _ .vmem, ⟨4, _⟩ => ⟨S1x384, .f32⟩
  | .local _ .vmem, ⟨5, _⟩ => ⟨S384x768, .bf16⟩
  | .local _ .vmem, ⟨6, _⟩ => ⟨S1x768, .f32⟩
  | .local _ .vmem, ⟨7, _⟩ => ⟨S384x768, .bf16⟩
  | .local _ .vmem, ⟨8, _⟩ => ⟨S512x768, .f32⟩
  | .local _ .vmem, ⟨9, _⟩ => ⟨S512x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x8192x768_S32768x768 : S4x8192x768.ShapeCasts S32768x768
  shapeCasts_S4x8192x384_S32768x384 : S4x8192x384.ShapeCasts S32768x384
  shapeCasts_S384_S1x384 : S384.ShapeCasts S1x384
  shapeCasts_S768_S1x768 : S768.ShapeCasts S1x768
  transposes_S768x384_S384x768_1_0 : S768x384.Transposes [1, 0] S384x768
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  shapeCasts_S512x768_S512x768 : S512x768.ShapeCasts S512x768
  reduces_S512x768_S512 : S512x768.Reduces [1] S512
  shapeCasts_S512_S512x1 : S512.ShapeCasts S512x1
  broadcasts_S512x1_S512x768 : S512x1.Broadcasts S512x768
  inb_S512x384_S512x384_0_0 : ∀ a, (![0, 0] : Fin 2 → Nat) a + S512x384.size a ≤ S512x384.size a
  h_S512x384 : 0 < S512x384.numel
  shapeCasts_S512x384_S512x384 : S512x384.ShapeCasts S512x384
  reduces_S512x384_S512 : S512x384.Reduces [1] S512
  broadcasts_S512x1_S512x384 : S512x1.Broadcasts S512x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  inb_S384x768_S384x768_0_0 : ∀ a, (![0, 0] : Fin 2 → Nat) a + S384x768.size a ≤ S384x768.size a
  h_S384x768 : 0 < S384x768.numel
  shapeCasts_S384x768_S384x768 : S384x768.ShapeCasts S384x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S32768x768_S4x8192x768 : S32768x768.ShapeCasts S4x8192x768
  dot_S512x384_S384x768_S512x768_1_0_0_1_n_n_wf : DotDims.WF S512x384 S384x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S32768x768.size a
  hwx0_0 : ∀ i : grid0.Coords, EltTy.bits .f32 = 32 ∨ (Rect.block (s := S32768x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x384.size a ≤ S32768x384.size a
  hwx0_1 : ∀ i : grid0.Coords, EltTy.bits .f32 = 32 ∨ (Rect.block (s := S32768x384) S512x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x768.size a ≤ S384x768.size a
  hwx0_3 : ∀ i : grid0.Coords, EltTy.bits .bf16 = 32 ∨ (Rect.block (s := S384x768) S384x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x768.size a ≤ S384x768.size a
  hwx0_5 : ∀ i : grid0.Coords, EltTy.bits .bf16 = 32 ∨ (Rect.block (s := S384x768) S384x768.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x768.size a ≤ S32768x768.size a
  hwx0_6 : ∀ i : grid0.Coords, EltTy.bits .f32 = 32 ∨ (Rect.block (s := S32768x768) S512x768.size (cc0_transform_6 i) (hinb0_6 i)).WholeWords (EltTy.packing .f32)

variable [Facts₀]

def dot_S512x384_S384x768_S512x768_1_0_0_1_n_n : DotDims S512x384 S384x768 S512x768 where
  lhsContracting := [1]
  rhsContracting := [0]
  lhsNonContracting := [0]
  rhsNonContracting := [1]
  lhsBatch := []
  rhsBatch := []
  wf := dot_S512x384_S384x768_S512x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S384x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S384x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S4x8192x384 : Shape := ⟨3, ![4, 8192, 384]⟩
abbrev S384 : Shape := ⟨1, ![384]⟩
abbrev S768x384 : Shape := ⟨2, ![768, 384]⟩
abbrev S768 : Shape := ⟨1, ![768]⟩
abbrev S_ : Shape := ⟨0, ![]⟩
abbrev S4x8192 : Shape := ⟨2, ![4, 8192]⟩
abbrev S4x8192x1 : Shape := ⟨3, ![4, 8192, 1]⟩
abbrev S1x1x384 : Shape := ⟨3, ![1, 1, 384]⟩
abbrev S1x1x768 : Shape := ⟨3, ![1, 1, 768]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4x8192x384, .f32⟩
  | .hbm, ⟨2, _⟩ => ⟨S384, .f32⟩
  | .hbm, ⟨3, _⟩ => ⟨S768x384, .f32⟩
  | .hbm, ⟨4, _⟩ => ⟨S768, .f32⟩
  | .hbm, ⟨5, _⟩ => ⟨S768x384, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S4x8192x768, .f32⟩
  | .hbm, ⟨13, _⟩ => ⟨S4x8192x768, .f32⟩
  | .hbm, ⟨14, _⟩ => ⟨S4x8192x768, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x768, .f32⟩
  | .hbm, ⟨22, _⟩ => ⟨S4x8192x768, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1, .f32⟩
  | .hbm, ⟨27, _⟩ => ⟨S4x8192x768, .f32⟩
  | .hbm, ⟨28, _⟩ => ⟨S4x8192x768, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S4x8192x384, .f32⟩
  | .hbm, ⟨36, _⟩ => ⟨S4x8192x384, .f32⟩
  | .hbm, ⟨37, _⟩ => ⟨S4x8192x384, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S4x8192x384, .f32⟩
  | .hbm, ⟨45, _⟩ => ⟨S4x8192x384, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x8192x1, .f32⟩
  | .hbm, ⟨50, _⟩ => ⟨S4x8192x384, .f32⟩
  | .hbm, ⟨51, _⟩ => ⟨S4x8192x384, .f32⟩
  | .hbm, ⟨52, _⟩ => ⟨S1x1x384, .f32⟩
  | .hbm, ⟨53, _⟩ => ⟨S4x8192x384, .f32⟩
  | .hbm, ⟨54, _⟩ => ⟨S4x8192x384, .f32⟩
  | .hbm, ⟨55, _⟩ => ⟨S4x8192x768, .f32⟩
  | .hbm, ⟨56, _⟩ => ⟨S1x1x768, .f32⟩
  | .hbm, ⟨57, _⟩ => ⟨S4x8192x768, .f32⟩
  | .hbm, ⟨58, _⟩ => ⟨S4x8192x768, .f32⟩
  | .hbm, ⟨59, _⟩ => ⟨S4x8192x768, .f32⟩
  | .hbm, ⟨60, _⟩ => ⟨S4x8192x768, .f32⟩
  | .hbm, ⟨61, _⟩ => ⟨S_, .f32⟩
  | .hbm, ⟨62, _⟩ => ⟨S4x8192x768, .f32⟩
  | .hbm, ⟨63, _⟩ => ⟨S4x8192x768, .f32⟩
  | .hbm, ⟨64, _⟩ => ⟨S_, .f32⟩
  | .hbm, ⟨65, _⟩ => ⟨S4x8192x768, .f32⟩
  | .hbm, ⟨66, _⟩ => ⟨S4x8192x768, .f32⟩
  | .hbm, ⟨67, _⟩ => ⟨S4x8192x768, .f32⟩
  | .hbm, ⟨68, _⟩ => ⟨S4x8192x768, .f32⟩
  | .hbm, ⟨69, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  reducesTo_S4x8192x768_S4x8192_d2 : S4x8192x768.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x768_0_1_2 : S4x8192x1.BroadcastsInDim S4x8192x768 (![0, 1, 2] : Fin 3 → Fin S4x8192x768.rank)
  reducesTo_S4x8192x384_S4x8192_d2 : S4x8192x384.ReducesTo [2] S4x8192
  bcast_S4x8192x1_S4x8192x384_0_1_2 : S4x8192x1.BroadcastsInDim S4x8192x384 (![0, 1, 2] : Fin 3 → Fin S4x8192x384.rank)
  bcast_S384_S1x1x384_2 : S384.BroadcastsInDim S1x1x384 (![2] : Fin 1 → Fin S1x1x384.rank)
  bcast_S1x1x384_S4x8192x384_0_1_2 : S1x1x384.BroadcastsInDim S4x8192x384 (![0, 1, 2] : Fin 3 → Fin S4x8192x384.rank)
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  bcast_S_S4x8192x768 : S_.BroadcastsInDim S4x8192x768 (![] : Fin 0 → Fin S4x8192x768.rank)
  dot_S4x8192x384_S768x384_S4x8192x768_2_1_01_0_n_n_wf : DotDims.WF S4x8192x384 S768x384 S4x8192x768 [2] [1] [0, 1] [0] [] []

variable [Facts₀]

def dot_S4x8192x384_S768x384_S4x8192x768_2_1_01_0_n_n : DotDims S4x8192x384 S768x384 S4x8192x768 where
  lhsContracting := [2]
  rhsContracting := [1]
  lhsNonContracting := [0, 1]
  rhsNonContracting := [0]
  lhsBatch := []
  rhsBatch := []
  wf := dot_S4x8192x384_S768x384_S4x8192x768_2_1_01_0_n_n_wf

class Facts : Prop extends Facts₀ where

variable [Facts]
-- ==== Proof.Spec.lean ====
/-
  Adaptive layer normalisation of one row, as mathematics on the extended reals (no program is imported here).

  A row x of n entries is normalised as  dev x k / sqrt (var x + e)  where  mean x = (Σ x) / c,
  dev x k = x k - mean x  and  var x = (Σ dev²) / c.  One program spells the quotient by the square root
  (`normQ`), the other as a product with the reciprocal square root (`normR`).  On a row of real
  entries, with c and e positive reals, var x + e is a positive real, so the two spellings agree:
  both are the real number  dev / √(var + e).

  The output row combines a normalised row xa with a gated projection of a second normalised, scaled
  row s = norm xs · lw:   out j = norm xa j · σ(Σ_k s k · wg j k + bg j) + Σ_k s k · wb j k,
  the logistic σ written either as one operation or expanded as 1 / (1 + exp (-·)); these are the same
  function on every extended real, by definition.
-/
import Idealize.ShloMosaic.PureOps.Ideal

noncomputable section

open scoped BigOperators

namespace Cert.AdaLN

open Idealize.ShloMosaic

variable {n : Nat}

/-- The mean of a row: its sum over the count c. -/
def mean (c : EReal) (x : Fin n → EReal) : EReal := Ideal.div (∑ k, x k) c

/-- An entry's deviation from the row's mean. -/
def dev (c : EReal) (x : Fin n → EReal) (k : Fin n) : EReal := x k - mean c x

/-- The row's variance: the mean of the squared deviations. -/
def var (c : EReal) (x : Fin n → EReal) : EReal := Ideal.div (∑ k, dev c x k * dev c x k) c

/-- The normalised entry, as a quotient by the square root. -/
def normQ (c e : EReal) (x : Fin n → EReal) (k : Fin n) : EReal :=
  Ideal.div (dev c x k) (Ideal.sqrt (var c x + e))

/-- The normalised entry, as a product with the reciprocal square root. -/
def normR (c e : EReal) (x : Fin n → EReal) (k : Fin n) : EReal :=
  dev c x k * Ideal.rsqrt (var c x + e)

/-- A finite sum of reals, read in the extended reals, is the sum of the readings. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- On a row of reals, with positive real count and offset, the two spellings of the normalised entry agree. -/
theorem normR_eq_normQ {c e : ℝ} (hc : 0 < c) (he : 0 < e) (x : Fin n → EReal) (hx : ∀ k, ∃ r : ℝ, x k = (r : EReal))
    (k : Fin n) : normR (c : EReal) (e : EReal) x k = normQ (c : EReal) (e : EReal) x k := by
  choose r hr using hx
  have hxr : x = fun k => ((r k : ℝ) : EReal) := funext hr
  subst hxr
  have hmean : mean (c : EReal) (fun k => ((r k : ℝ) : EReal)) = (((∑ k, r k) * (1 / c) : ℝ) : EReal) := by
    unfold mean
    rw [coe_sum, Ideal.div_coe hc.ne', EReal.coe_mul]
  have hdev : ∀ k, dev (c : EReal) (fun k => ((r k : ℝ) : EReal)) k = ((r k - (∑ k, r k) * (1 / c) : ℝ) : EReal) := by
    intro k
    unfold dev
    rw [hmean, EReal.coe_sub]
  have hvar : var (c : EReal) (fun k => ((r k : ℝ) : EReal))
      = (((∑ k, (r k - (∑ k, r k) * (1 / c)) * (r k - (∑ k, r k) * (1 / c))) * (1 / c) : ℝ) : EReal) := by
    unfold var
    simp only [hdev, ← EReal.coe_mul]
    rw [coe_sum, Ideal.div_coe hc.ne', EReal.coe_mul]
  set V : ℝ := (∑ k, (r k - (∑ k, r k) * (1 / c)) * (r k - (∑ k, r k) * (1 / c))) * (1 / c) with hV
  have hVnn : 0 ≤ V := by
    rw [hV]
    exact mul_nonneg (Finset.sum_nonneg fun k _ => mul_self_nonneg _) (by positivity)
  have hpos : 0 < V + e := by linarith
  unfold normR normQ
  rw [hvar, ← EReal.coe_add, Ideal.rsqrt_coe, Ideal.sqrt_coe, if_neg (not_lt.mpr hpos.le), if_neg hpos.ne',
    if_neg (not_lt.mpr hpos.le), Ideal.div_coe (Real.sqrt_ne_zero'.mpr hpos), one_div]

/-- The scaled, normalised second row (quotient spelling). -/
def scaledQ (c e : EReal) (xs lw : Fin n → EReal) (k : Fin n) : EReal := normQ c e xs k * lw k

/-- The scaled, normalised second row (reciprocal-root spelling). -/
def scaledR (c e : EReal) (xs lw : Fin n → EReal) (k : Fin n) : EReal := normR c e xs k * lw k

variable {A K : Nat}

/-- One output entry, with the quotient spelling of the normalisations and the logistic expanded. -/
def outQ (ca cs e one : EReal) (xa : Fin A → EReal) (xs lw : Fin K → EReal) (wg wb : Fin A → Fin K → EReal)
    (bg : Fin A → EReal) (j : Fin A) : EReal :=
  normQ ca e xa j * Ideal.div one (one + Ideal.exp (-((∑ k, scaledQ cs e xs lw k * wg j k) + bg j)))
    + ∑ k, scaledQ cs e xs lw k * wb j k

/-- One output entry, with the reciprocal-root spelling and the logistic as one operation. -/
def outR (ca cs e : EReal) (xa : Fin A → EReal) (xs lw : Fin K → EReal) (wg wb : Fin A → Fin K → EReal)
    (bg : Fin A → EReal) (j : Fin A) : EReal :=
  normR ca e xa j * Ideal.logistic ((∑ k, scaledR cs e xs lw k * wg j k) + bg j)
    + ∑ k, scaledR cs e xs lw k * wb j k

/-- On rows of reals the two spellings of an output entry agree (the weights and the bias may be any extended reals). -/
theorem outR_eq_outQ {ca cs e : ℝ} (hca : 0 < ca) (hcs : 0 < cs) (he : 0 < e)
    (xa : Fin A → EReal) (xs lw : Fin K → EReal) (wg wb : Fin A → Fin K → EReal) (bg : Fin A → EReal)
    (hxa : ∀ k, ∃ r : ℝ, xa k = (r : EReal)) (hxs : ∀ k, ∃ r : ℝ, xs k = (r : EReal)) (j : Fin A) :
    outR (ca : EReal) (cs : EReal) (e : EReal) xa xs lw wg wb bg j
      = outQ (ca : EReal) (cs : EReal) (e : EReal) 1 xa xs lw wg wb bg j := by
  unfold outR outQ scaledR scaledQ
  simp only [normR_eq_normQ hcs he xs hxs, normR_eq_normQ hca he xa hxa]
  rfl

end Cert.AdaLN

end
-- ==== Proof.Consts.lean ====
/-
  The float words the two programs spell, as extended reals: the row lengths 768 and 384, the unit 1, and the
  offset added to a variance (the word nearest 10⁻⁵: all that is used of it is that it is a positive real).
-/
import Idealize.ShloMosaic.PureOps.Ideal
import Idealize.ShloMosaic.PureOps.Ideal.Laws

noncomputable section

namespace Cert.AdaLN

open Idealize.ShloMosaic

theorem word_768 : Ideal.ofBits .f32 0x44400000#32 = ((768 : ℝ) : EReal) := by
  simp [Ideal.ofBits, Ideal.ieee, -EReal.coe_mul]; norm_num

theorem word_384 : Ideal.ofBits .f32 0x43C00000#32 = ((384 : ℝ) : EReal) := by
  simp [Ideal.ofBits, Ideal.ieee, -EReal.coe_mul]; norm_num

theorem word_one : Ideal.ofBits .f32 0x3F800000#32 = (1 : EReal) := by
  simp [Ideal.ofBits, Ideal.ieee, -EReal.coe_mul]; norm_num

theorem word_eps : ∃ e : ℝ, 0 < e ∧ Ideal.ofBits .f32 0x3727C5AC#32 = ((e : ℝ) : EReal) := by
  simp [Ideal.ofBits, Ideal.ieee, -EReal.coe_mul]

/-- The offset word's real value. -/
def eps : ℝ := word_eps.choose
theorem eps_pos : 0 < eps := word_eps.choose_spec.1
theorem word_eps_eq : Ideal.ofBits .f32 0x3727C5AC#32 = ((eps : ℝ) : EReal) := word_eps.choose_spec.2

end Cert.AdaLN

end
-- ==== Proof.Result.lean ====
/-
  The whole result of the adaptive layer normalisation as one function of the six argument arrays, entry by
  entry, in the two spellings of Spec.lean, over the literal shapes a [4, 8192, 768], s [4, 8192, 384],
  lw [384], wg [768, 384], bg [768], wb [768, 384].

  Entry (b, n, j) of the result depends on row (b, n) of a, row (b, n) of s, the whole of lw, row j of wg and
  of wb, and entry j of bg.  The counts 768 and 384, the offset and the unit are kept as the float words both
  programs spell, read at the ideal values.
-/
import proofs.«129126_j86371792322640_1_alg».proof.Proof.Spec
import proofs.«129126_j86371792322640_1_alg».proof.Proof.Consts
import Idealize.ShloMosaic.Lib.ValueIdx

noncomputable section

open scoped BigOperators

namespace Cert.AdaLN

open Idealize.ShloMosaic Idealize.ShloMosaic.ValueIdx

/-- Row (b, n) of a [4, 8192, D] array. -/
def row3 {D : Nat} (x : (⟨3, ![4, 8192, D]⟩ : Shape).Idx → EReal) (b : Fin 4) (n : Fin 8192) : Fin D → EReal :=
  fun k => x (ix3 b n k)

/-- A [D] vector by its coordinate. -/
def vec1 {D : Nat} (x : (⟨1, ![D]⟩ : Shape).Idx → EReal) : Fin D → EReal := fun k => x (ix1 k)

/-- An [A, K] matrix by its two coordinates. -/
def mat2 {A K : Nat} (x : (⟨2, ![A, K]⟩ : Shape).Idx → EReal) : Fin A → Fin K → EReal := fun j k => x (ix2 j k)

/-- The float words of the counts, the offset and the unit, at the ideal values. -/
abbrev c768 : EReal := Ideal.ofBits .f32 0x44400000#32
abbrev c384 : EReal := Ideal.ofBits .f32 0x43C00000#32
abbrev cEps : EReal := Ideal.ofBits .f32 0x3727C5AC#32
abbrev cOne : EReal := Ideal.ofBits .f32 0x3F800000#32

/-- The result, quotient spelling, logistic expanded. -/
def resultQ (a : (⟨3, ![4, 8192, 768]⟩ : Shape).Idx → EReal) (s : (⟨3, ![4, 8192, 384]⟩ : Shape).Idx → EReal)
    (lw : (⟨1, ![384]⟩ : Shape).Idx → EReal) (wg : (⟨2, ![768, 384]⟩ : Shape).Idx → EReal)
    (bg : (⟨1, ![768]⟩ : Shape).Idx → EReal) (wb : (⟨2, ![768, 384]⟩ : Shape).Idx → EReal) :
    (⟨3, ![4, 8192, 768]⟩ : Shape).Idx → EReal :=
  fun i => outQ c768 c384 cEps cOne (row3 a (i 0) (i 1)) (row3 s (i 0) (i 1)) (vec1 lw) (mat2 wg) (mat2 wb) (vec1 bg) (i 2)

/-- The result, reciprocal-root spelling, logistic as one operation. -/
def resultR (a : (⟨3, ![4, 8192, 768]⟩ : Shape).Idx → EReal) (s : (⟨3, ![4, 8192, 384]⟩ : Shape).Idx → EReal)
    (lw : (⟨1, ![384]⟩ : Shape).Idx → EReal) (wg : (⟨2, ![768, 384]⟩ : Shape).Idx → EReal)
    (bg : (⟨1, ![768]⟩ : Shape).Idx → EReal) (wb : (⟨2, ![768, 384]⟩ : Shape).Idx → EReal) :
    (⟨3, ![4, 8192, 768]⟩ : Shape).Idx → EReal :=
  fun i => outR c768 c384 cEps (row3 a (i 0) (i 1)) (row3 s (i 0) (i 1)) (vec1 lw) (mat2 wg) (mat2 wb) (vec1 bg) (i 2)

/-- Where every entry of a and of s is a real number the two spellings are one function. -/
theorem resultR_eq_resultQ (a : (⟨3, ![4, 8192, 768]⟩ : Shape).Idx → EReal) (s : (⟨3, ![4, 8192, 384]⟩ : Shape).Idx → EReal)
    (lw : (⟨1, ![384]⟩ : Shape).Idx → EReal) (wg : (⟨2, ![768, 384]⟩ : Shape).Idx → EReal)
    (bg : (⟨1, ![768]⟩ : Shape).Idx → EReal) (wb : (⟨2, ![768, 384]⟩ : Shape).Idx → EReal)
    (ha : ∀ i, ∃ r : ℝ, a i = (r : EReal)) (hs : ∀ i, ∃ r : ℝ, s i = (r : EReal)) :
    resultR a s lw wg bg wb = resultQ a s lw wg bg wb := by
  funext i
  unfold resultR resultQ c768 c384 cEps cOne
  rw [word_768, word_384, word_eps_eq, word_one]
  exact outR_eq_outQ (by norm_num) (by norm_num) eps_pos _ _ _ _ _ _ (fun k => ha _) (fun k => hs _) _

end Cert.AdaLN

end
-- ==== Proof.RefValue.lean ====
/-
  The reference program's result, entry by entry, is the adaptive layer normalisation of Spec.lean in the quotient
  spelling with the logistic expanded.

  The generated module names every operation of the reference as a stage and reads each stage at an index.  Going up
  from the arguments: the row mean, the deviation from it (the program subtracts the mean twice, once for the variance
  and once for the numerator: both are the same deviation), the variance, the normalised entry; the same four for the
  second row; the scaled row; the two projections as sums over the 384 columns; the gate 1 / (1 + exp (-(· + bias)));
  and the result  norm · gate + projection.  A host sum carries an initial value, the zero word, which is the real 0.
  The float words of the counts, the offset and the unit are kept as words: the same word stands on both sides.
-/
import proofs.«129126_j86371792322640_1_alg».proof.Proof.Gen.ReferenceIdeal.Read
import proofs.«129126_j86371792322640_1_alg».proof.Proof.Result
import Idealize.ShloMosaic.Lib.ValueIdx
import Idealize.ShloMosaic.PureOps.Ideal
import Idealize.ShloMosaic.PureOps.Ideal.Laws

noncomputable section

open scoped BigOperators

namespace Cert.AdaLN.Ref

open Cert.ReferenceIdeal Cert.ReferenceIdeal.Read Idealize.ShloMosaic Idealize.ShloMosaic.ValueIdx Cert.AdaLN

/-! ## The first row: a, of 768 entries -/

/-- The mean stage at row (b, n) is the mean of that row. -/
theorem mean_a (x0 : (⟨S4x8192x768, .f32⟩ : BufTy).Contents (Elt Ideal)) (b : Fin 4) (n : Fin 8192) (z : Fin 1) :
    val_main_v3 (F := Ideal) x0 (ix3 b n z) = mean c768 (row3 x0 b n) := by
  rw [val_main_v3_apply, val_main_v1_apply, val_main_v0_apply, val_main_v2_apply, val_main_cst_0_apply,
    val_main_cst_apply]
  simp only [Ideal.hostDivf_def, Ideal.ofBits_def, Ideal.ofBits_zero_f32, zero_add,
    show ∀ k : Fin 768, idx_main_v0 (idx_main_v1 (ix3 b n z)) k = ix3 b n k from fun k =>
      funext fun a => by match a with | ⟨0, _⟩ => rfl | ⟨1, _⟩ => rfl | ⟨2, _⟩ => rfl]
  rfl

/-- The first subtraction of the mean is the deviation. -/
theorem dev5_a (x0 : (⟨S4x8192x768, .f32⟩ : BufTy).Contents (Elt Ideal)) (b : Fin 4) (n : Fin 8192) (j : Fin 768) :
    val_main_v5 (F := Ideal) x0 (ix3 b n j) = dev c768 (row3 x0 b n) j := by
  rw [val_main_v5_apply, val_main_v4_apply,
    show idx_main_v4 (ix3 b n j) = ix3 b n (0 : Fin 1) from
      funext fun a => by match a with | ⟨0, _⟩ => rfl | ⟨1, _⟩ => rfl | ⟨2, _⟩ => rfl,
    mean_a]
  rfl

/-- The second subtraction of the mean is the same deviation. -/
theorem dev12_a (x0 : (⟨S4x8192x768, .f32⟩ : BufTy).Contents (Elt Ideal)) (b : Fin 4) (n : Fin 8192) (j : Fin 768) :
    val_main_v12 (F := Ideal) x0 (ix3 b n j) = dev c768 (row3 x0 b n) j := by
  rw [val_main_v12_apply, val_main_v11_apply,
    show idx_main_v11 (ix3 b n j) = ix3 b n (0 : Fin 1) from
      funext fun a => by match a with | ⟨0, _⟩ => rfl | ⟨1, _⟩ => rfl | ⟨2, _⟩ => rfl,
    mean_a]
  rfl

/-- The variance stage at row (b, n) is the variance of that row. -/
theorem var_a (x0 : (⟨S4x8192x768, .f32⟩ : BufTy).Contents (Elt Ideal)) (b : Fin 4) (n : Fin 8192) (z : Fin 1) :
    val_main_v10 (F := Ideal) x0 (ix3 b n z) = var c768 (row3 x0 b n) := by
  rw [val_main_v10_apply, val_main_v8_apply, val_main_v7_apply, val_main_v9_apply, val_main_cst_2_apply,
    val_main_cst_1_apply]
  simp only [Ideal.hostDivf_def, Ideal.ofBits_def, Ideal.ofBits_zero_f32, zero_add,
    show ∀ k : Fin 768, idx_main_v7 (idx_main_v8 (ix3 b n z)) k = ix3 b n k from fun k =>
      funext fun a => by match a with | ⟨0, _⟩ => rfl | ⟨1, _⟩ => rfl | ⟨2, _⟩ => rfl,
    val_main_v6_apply, dev5_a, Ideal.mulf_def]
  rfl

/-- The normalised entry of the first row, as the quotient by the square root. -/
theorem norm_a (x0 : (⟨S4x8192x768, .f32⟩ : BufTy).Contents (Elt Ideal)) (b : Fin 4) (n : Fin 8192) (j : Fin 768) :
    val_main_v17 (F := Ideal) x0 (ix3 b n j) = normQ c768 cEps (row3 x0 b n) j := by
  rw [val_main_v17_apply, dev12_a, val_main_v16_apply,
    show idx_main_v16 (ix3 b n j) = ix3 b n (0 : Fin 1) from
      funext fun a => by match a with | ⟨0, _⟩ => rfl | ⟨1, _⟩ => rfl | ⟨2, _⟩ => rfl,
    val_main_v15_apply, val_main_v14_apply, var_a, val_main_v13_apply, val_main_cst_3_apply]
  rfl

/-! ## The second row: s, of 384 entries -/

/-- The mean stage at row (b, n) is the mean of that row. -/
theorem mean_s (x1 : (⟨S4x8192x384, .f32⟩ : BufTy).Contents (Elt Ideal)) (b : Fin 4) (n : Fin 8192) (z : Fin 1) :
    val_main_v21 (F := Ideal) x1 (ix3 b n z) = mean c384 (row3 x1 b n) := by
  rw [val_main_v21_apply, val_main_v19_apply, val_main_v18_apply, val_main_v20_apply, val_main_cst_5_apply,
    val_main_cst_4_apply]
  simp only [Ideal.hostDivf_def, Ideal.ofBits_def, Ideal.ofBits_zero_f32, zero_add,
    show ∀ k : Fin 384, idx_main_v18 (idx_main_v19 (ix3 b n z)) k = ix3 b n k from fun k =>
      funext fun a => by match a with | ⟨0, _⟩ => rfl | ⟨1, _⟩ => rfl | ⟨2, _⟩ => rfl]
  rfl

/-- The first subtraction of the mean is the deviation. -/
theorem dev23_s (x1 : (⟨S4x8192x384, .f32⟩ : BufTy).Contents (Elt Ideal)) (b : Fin 4) (n : Fin 8192) (k : Fin 384) :
    val_main_v23 (F := Ideal) x1 (ix3 b n k) = dev c384 (row3 x1 b n) k := by
  rw [val_main_v23_apply, val_main_v22_apply,
    show idx_main_v22 (ix3 b n k) = ix3 b n (0 : Fin 1) from
      funext fun a => by match a with | ⟨0, _⟩ => rfl | ⟨1, _⟩ => rfl | ⟨2, _⟩ => rfl,
    mean_s]
  rfl

/-- The second subtraction of the mean is the same deviation. -/
theorem dev30_s (x1 : (⟨S4x8192x384, .f32⟩ : BufTy).Contents (Elt Ideal)) (b : Fin 4) (n : Fin 8192) (k : Fin 384) :
    val_main_v30 (F := Ideal) x1 (ix3 b n k) = dev c384 (row3 x1 b n) k := by
  rw [val_main_v30_apply, val_main_v29_apply,
    show idx_main_v29 (ix3 b n k) = ix3 b n (0 : Fin 1) from
      funext fun a => by match a with | ⟨0, _⟩ => rfl | ⟨1, _⟩ => rfl | ⟨2, _⟩ => rfl,
    mean_s]
  rfl

/-- The variance stage at row (b, n) is the variance of that row. -/
theorem var_s (x1 : (⟨S4x8192x384, .f32⟩ : BufTy).Contents (Elt Ideal)) (b : Fin 4) (n : Fin 8192) (z : Fin 1) :
    val_main_v28 (F := Ideal) x1 (ix3 b n z) = var c384 (row3 x1 b n) := by
  rw [val_main_v28_apply, val_main_v26_apply, val_main_v25_apply, val_main_v27_apply, val_main_cst_7_apply,
    val_main_cst_6_apply]
  simp only [Ideal.hostDivf_def, Ideal.ofBits_def, Ideal.ofBits_zero_f32, zero_add,
    show ∀ k : Fin 384, idx_main_v25 (idx_main_v26 (ix3 b n z)) k = ix3 b n k from fun k =>
      funext fun a => by match a with | ⟨0, _⟩ => rfl | ⟨1, _⟩ => rfl | ⟨2, _⟩ => rfl,
    val_main_v24_apply, dev23_s, Ideal.mulf_def]
  rfl

/-- The normalised entry of the second row, as the quotient by the square root. -/
theorem norm_s (x1 : (⟨S4x8192x384, .f32⟩ : BufTy).Contents (Elt Ideal)) (b : Fin 4) (n : Fin 8192) (k : Fin 384) :
    val_main_v35 (F := Ideal) x1 (ix3 b n k) = normQ c384 cEps (row3 x1 b n) k := by
  rw [val_main_v35_apply, dev30_s, val_main_v34_apply,
    show idx_main_v34 (ix3 b n k) = ix3 b n (0 : Fin 1) from
      funext fun a => by match a with | ⟨0, _⟩ => rfl | ⟨1, _⟩ => rfl | ⟨2, _⟩ => rfl,
    val_main_v33_apply, val_main_v32_apply, var_s, val_main_v31_apply, val_main_cst_8_apply]
  rfl

/-- The scaled row: the normalised entry times the weight of its column. -/
theorem scaled_s (x1 : (⟨S4x8192x384, .f32⟩ : BufTy).Contents (Elt Ideal)) (x2 : (⟨S384, .f32⟩ : BufTy).Contents (Elt Ideal))
    (b : Fin 4) (n : Fin 8192) (k : Fin 384) :
    val_main_v38 (F := Ideal) x1 x2 (ix3 b n k) = scaledQ c384 cEps (row3 x1 b n) (vec1 x2) k := by
  rw [val_main_v38_apply, norm_s, val_main_v37_apply, val_main_v36_apply,
    show idx_main_v36 (idx_main_v37 (ix3 b n k)) = ix1 k from
      funext fun a => by match a with | ⟨0, _⟩ => rfl]
  rfl

/-! ## The projections, the gate and the result -/

/-- The projection onto the gate's weights: the sum over the 384 columns of the scaled row times row j of the weights. -/
theorem dot_g (x1 : (⟨S4x8192x384, .f32⟩ : BufTy).Contents (Elt Ideal)) (x2 : (⟨S384, .f32⟩ : BufTy).Contents (Elt Ideal))
    (x3 : (⟨S768x384, .f32⟩ : BufTy).Contents (Elt Ideal)) (b : Fin 4) (n : Fin 8192) (j : Fin 768) :
    val_main_v39 (F := Ideal) x1 x2 x3 (ix3 b n j)
      = ∑ k : Fin 384, scaledQ c384 cEps (row3 x1 b n) (vec1 x2) k * mat2 x3 j k := by
  rw [val_main_v39_apply]
  refine Finset.sum_congr rfl fun k _ => ?_
  rw [show lidx_main_v39 (ix3 b n j) k = ix3 b n k from
      funext fun a => by match a with | ⟨0, _⟩ => rfl | ⟨1, _⟩ => rfl | ⟨2, _⟩ => rfl,
    show ridx_main_v39 (ix3 b n j) k = ix2 j k from
      funext fun a => by match a with | ⟨0, _⟩ => rfl | ⟨1, _⟩ => rfl,
    scaled_s]
  rfl

/-- The projection onto the second weights, likewise. -/
theorem dot_b (x1 : (⟨S4x8192x384, .f32⟩ : BufTy).Contents (Elt Ideal)) (x2 : (⟨S384, .f32⟩ : BufTy).Contents (Elt Ideal))
    (x5 : (⟨S768x384, .f32⟩ : BufTy).Contents (Elt Ideal)) (b : Fin 4) (n : Fin 8192) (j : Fin 768) :
    val_main_v49 (F := Ideal) x1 x2 x5 (ix3 b n j)
      = ∑ k : Fin 384, scaledQ c384 cEps (row3 x1 b n) (vec1 x2) k * mat2 x5 j k := by
  rw [val_main_v49_apply]
  refine Finset.sum_congr rfl fun k _ => ?_
  rw [show lidx_main_v49 (ix3 b n j) k = ix3 b n k from
      funext fun a => by match a with | ⟨0, _⟩ => rfl | ⟨1, _⟩ => rfl | ⟨2, _⟩ => rfl,
    show ridx_main_v49 (ix3 b n j) k = ix2 j k from
      funext fun a => by match a with | ⟨0, _⟩ => rfl | ⟨1, _⟩ => rfl,
    scaled_s]
  rfl

/-- The gate: the logistic of the first projection plus the bias, expanded as 1 / (1 + exp (-·)). -/
theorem gate (x1 : (⟨S4x8192x384, .f32⟩ : BufTy).Contents (Elt Ideal)) (x2 : (⟨S384, .f32⟩ : BufTy).Contents (Elt Ideal))
    (x3 : (⟨S768x384, .f32⟩ : BufTy).Contents (Elt Ideal)) (x4 : (⟨S768, .f32⟩ : BufTy).Contents (Elt Ideal))
    (b : Fin 4) (n : Fin 8192) (j : Fin 768) :
    val_main_v48 (F := Ideal) x1 x2 x3 x4 (ix3 b n j)
      = Ideal.div cOne (cOne + Ideal.exp (-((∑ k : Fin 384, scaledQ c384 cEps (row3 x1 b n) (vec1 x2) k * mat2 x3 j k)
          + vec1 x4 j))) := by
  rw [val_main_v48_apply, val_main_v47_apply, val_main_cst_10_apply, val_main_v46_apply, val_main_v45_apply,
    val_main_cst_9_apply, val_main_v44_apply, val_main_v43_apply, val_main_v42_apply, dot_g, val_main_v41_apply,
    val_main_v40_apply,
    show idx_main_v40 (idx_main_v41 (ix3 b n j)) = ix1 j from
      funext fun a => by match a with | ⟨0, _⟩ => rfl]
  rfl

/-- The reference's result is the adaptive layer normalisation, quotient spelling, logistic expanded. -/
theorem val_eq (x0 : (⟨S4x8192x768, .f32⟩ : BufTy).Contents (Elt Ideal)) (x1 : (⟨S4x8192x384, .f32⟩ : BufTy).Contents (Elt Ideal))
    (x2 : (⟨S384, .f32⟩ : BufTy).Contents (Elt Ideal)) (x3 : (⟨S768x384, .f32⟩ : BufTy).Contents (Elt Ideal))
    (x4 : (⟨S768, .f32⟩ : BufTy).Contents (Elt Ideal)) (x5 : (⟨S768x384, .f32⟩ : BufTy).Contents (Elt Ideal)) :
    val_main_v51 (F := Ideal) x0 x1 x2 x3 x4 x5 = resultQ x0 x1 x2 x3 x4 x5 := by
  funext i
  obtain ⟨b, n, j, rfl⟩ : ∃ (b : Fin 4) (n : Fin 8192) (j : Fin 768), i = ix3 b n j := ⟨i 0, i 1, i 2, eq_ix3 i⟩
  rw [val_main_v51_apply, val_main_v50_apply, norm_a, gate, dot_b]
  rfl

end Cert.AdaLN.Ref

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.KernelNorm.lean ====
/-
  The row layer normalisation as a vector program spells it, read at an entry (generic in the sizes [A, D]).

  The program sums each row (a reduction over axis 1), turns the sums into a column [A, 1], divides by the
  count, broadcasts the column of means back over the D columns and subtracts; does the same with the squared
  deviations for the variance; adds the offset, takes the reciprocal square root of the column and multiplies
  the deviations by its broadcast.  At entry (p, q) this is the reciprocal-root spelling `normR` of Spec.lean on
  row p: the column entries at (p, 0) are the row's mean and variance, and a column broadcast reads (p, 0) at
  every (p, q).
-/
import proofs.«129126_j86371792322640_1_alg».proof.Proof.Spec
import proofs.«129126_j86371792322640_1_alg».proof.Proof.LibAxisSum
import proofs.«129126_j86371792322640_1_alg».proof.Proof.LibLayoutCol
import Idealize.ShloMosaic.Lib.ValueIdx
import Idealize.ShloMosaic.Lib.Pipeline.Value
import Idealize.ShloMosaic.PureOps.Ideal.Laws

noncomputable section

open scoped BigOperators

namespace Cert.AdaLN

open Idealize.ShloMosaic Idealize.ShloMosaic.ValueIdx

variable {A D : Nat}

/-- A column [A, 1] broadcast over D columns holds at (p, q) the column's entry (p, 0). -/
theorem bcastColumn_apply {α : Type} (y : (⟨2, ![A, 1]⟩ : Shape).Idx → α)
    (hb : (⟨2, ![A, 1]⟩ : Shape).Broadcasts ⟨2, ![A, D]⟩) (p : Fin A) (q : Fin D) :
    broadcastTo ⟨2, ![A, D]⟩ y hb (ix2 p q) = y (ix2 p (0 : Fin 1)) := by
  refine broadcastTo_apply y hb (ix2 p q) (ix2 p (0 : Fin 1)) ?_
  intro a
  match a with
  | ⟨0, _⟩ =>
    show p.val = if A = 1 then 0 else p.val
    split
    · have := p.isLt; omega
    · rfl
  | ⟨1, _⟩ => simp

/-- The column of row means, at (p, 0). -/
theorem meanColumn_apply (x : FVec Ideal ⟨2, ![A, D]⟩ .f32) (cw : BitVec 32)
    (hred : (⟨2, ![A, D]⟩ : Shape).Reduces [1] ⟨1, ![A]⟩) (hφ : FKind.Formats .f32)
    (hacc : (0x00000000#32 : BitVec 32) = FKind.add.neutral .f32 hφ)
    (hcol : (⟨1, ![A]⟩ : Shape).ShapeCasts ⟨2, ![A, 1]⟩) (p : Fin A) :
    divf (shapeCast ⟨2, ![A, 1]⟩ (multiReduction .add [1] ⟨1, ![A]⟩ x 0x00000000#32 hred hφ hacc) hcol)
        (broadcast ⟨2, ![A, 1]⟩ (Scalar.ofBits .f32 cw)) (ix2 p (0 : Fin 1))
      = mean (Ideal.ofBits .f32 cw) (fun k => x (ix2 p k)) := by
  show Ideal.div (shapeCast ⟨2, ![A, 1]⟩ (multiReduction .add [1] ⟨1, ![A]⟩ x 0x00000000#32 hred hφ hacc) hcol (ix2 p (0 : Fin 1)))
      (Ideal.ofBits .f32 cw) = _
  rw [Cert.Lib.LayoutCol.colCast_apply, Cert.Lib.AxisSum.rowSum_apply]
  rfl

/-- The program's spelling of the normalised matrix. -/
def kernelNorm (x : FVec Ideal ⟨2, ![A, D]⟩ .f32) (cw ew : BitVec 32)
    (hred : (⟨2, ![A, D]⟩ : Shape).Reduces [1] ⟨1, ![A]⟩) (hφ : FKind.Formats .f32)
    (hacc : (0x00000000#32 : BitVec 32) = FKind.add.neutral .f32 hφ)
    (hcol : (⟨1, ![A]⟩ : Shape).ShapeCasts ⟨2, ![A, 1]⟩)
    (hb : (⟨2, ![A, 1]⟩ : Shape).Broadcasts ⟨2, ![A, D]⟩) : FVec Ideal ⟨2, ![A, D]⟩ .f32 :=
  mulf (subf x (broadcastTo ⟨2, ![A, D]⟩ (divf (shapeCast ⟨2, ![A, 1]⟩ (multiReduction .add [1] ⟨1, ![A]⟩ x 0x00000000#32 hred hφ hacc) hcol) (broadcast ⟨2, ![A, 1]⟩ (Scalar.ofBits .f32 cw))) hb))
    (broadcastTo ⟨2, ![A, D]⟩
      (rsqrt (addf
        (divf (shapeCast ⟨2, ![A, 1]⟩ (multiReduction .add [1] ⟨1, ![A]⟩
            (mulf (subf x (broadcastTo ⟨2, ![A, D]⟩ (divf (shapeCast ⟨2, ![A, 1]⟩ (multiReduction .add [1] ⟨1, ![A]⟩ x 0x00000000#32 hred hφ hacc) hcol) (broadcast ⟨2, ![A, 1]⟩ (Scalar.ofBits .f32 cw))) hb))
                  (subf x (broadcastTo ⟨2, ![A, D]⟩ (divf (shapeCast ⟨2, ![A, 1]⟩ (multiReduction .add [1] ⟨1, ![A]⟩ x 0x00000000#32 hred hφ hacc) hcol) (broadcast ⟨2, ![A, 1]⟩ (Scalar.ofBits .f32 cw))) hb)))
            0x00000000#32 hred hφ hacc) hcol)
          (broadcast ⟨2, ![A, 1]⟩ (Scalar.ofBits .f32 cw)))
        (broadcast ⟨2, ![A, 1]⟩ (Scalar.ofBits .f32 ew))))
      hb)

/-- The deviations matrix at (p, k) is the row's deviation. -/
theorem devMatrix_apply (x : FVec Ideal ⟨2, ![A, D]⟩ .f32) (cw : BitVec 32)
    (hred : (⟨2, ![A, D]⟩ : Shape).Reduces [1] ⟨1, ![A]⟩) (hφ : FKind.Formats .f32)
    (hacc : (0x00000000#32 : BitVec 32) = FKind.add.neutral .f32 hφ)
    (hcol : (⟨1, ![A]⟩ : Shape).ShapeCasts ⟨2, ![A, 1]⟩)
    (hb : (⟨2, ![A, 1]⟩ : Shape).Broadcasts ⟨2, ![A, D]⟩) (p : Fin A) (k : Fin D) :
    subf x (broadcastTo ⟨2, ![A, D]⟩ (divf (shapeCast ⟨2, ![A, 1]⟩ (multiReduction .add [1] ⟨1, ![A]⟩ x 0x00000000#32 hred hφ hacc) hcol) (broadcast ⟨2, ![A, 1]⟩ (Scalar.ofBits .f32 cw))) hb) (ix2 p k)
      = dev (Ideal.ofBits .f32 cw) (fun k => x (ix2 p k)) k := by
  show x (ix2 p k) - broadcastTo ⟨2, ![A, D]⟩ _ hb (ix2 p k) = _
  rw [bcastColumn_apply, meanColumn_apply]
  rfl

/-- The program's normalised matrix at (p, q) is the reciprocal-root spelling on row p. -/
theorem kernelNorm_apply (x : FVec Ideal ⟨2, ![A, D]⟩ .f32) (cw ew : BitVec 32)
    (hred : (⟨2, ![A, D]⟩ : Shape).Reduces [1] ⟨1, ![A]⟩) (hφ : FKind.Formats .f32)
    (hacc : (0x00000000#32 : BitVec 32) = FKind.add.neutral .f32 hφ)
    (hcol : (⟨1, ![A]⟩ : Shape).ShapeCasts ⟨2, ![A, 1]⟩)
    (hb : (⟨2, ![A, 1]⟩ : Shape).Broadcasts ⟨2, ![A, D]⟩) (p : Fin A) (q : Fin D) :
    kernelNorm x cw ew hred hφ hacc hcol hb (ix2 p q)
      = normR (Ideal.ofBits .f32 cw) (Ideal.ofBits .f32 ew) (fun k => x (ix2 p k)) q := by
  unfold kernelNorm
  show (subf x _ (ix2 p q)) * (broadcastTo ⟨2, ![A, D]⟩ _ hb (ix2 p q)) = _
  rw [devMatrix_apply, bcastColumn_apply]
  show _ * Ideal.rsqrt (Ideal.div (shapeCast ⟨2, ![A, 1]⟩ _ hcol (ix2 p (0 : Fin 1))) (Ideal.ofBits .f32 cw) + Ideal.ofBits .f32 ew) = _
  rw [Cert.Lib.LayoutCol.colCast_apply, Cert.Lib.AxisSum.rowSum_apply]
  unfold normR var
  refine congrArg (fun s => _ * Ideal.rsqrt (Ideal.div s _ + _)) (Finset.sum_congr rfl fun k _ => ?_)
  show (subf x _ (ix2 p k)) * (subf x _ (ix2 p k)) = _
  rw [devMatrix_apply]

end Cert.AdaLN

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.Payload.lean ====
/-
  What the kernel's body computes from its loaded blocks, read at one entry (p, q) of the [512, 768] output block.

  From a block xa [512, 768], a block xs [512, 384], the scale row lw [1, 384], the two transposed weight
  matrices wgT, wbT [384, 768] and the bias row bg [1, 768] the body forms  norm(xa) · σ(s · wgT + bg) + s · wbT  with
  s = norm(xs) · lw, the normalisations in the reciprocal-root spelling and the two products as matrix products
  into a zero accumulator.  At (p, q) this is Spec.lean's `outR` on row p of xa and of xs, with the weights'
  rows read as columns q of the transposed matrices: the products are sums over the 384 shared coordinates,
  and the two one-row operands broadcast down the rows read their entry in column k resp. q.
-/
import proofs.«129126_j86371792322640_1_alg».proof.Proof.Gen.KernelIdeal.Skeleton
import proofs.«129126_j86371792322640_1_alg».proof.Proof.KernelNorm
import proofs.«129126_j86371792322640_1_alg».proof.Proof.LibMatmul
import proofs.«129126_j86371792322640_1_alg».proof.Proof.Result

noncomputable section

open scoped BigOperators

namespace Cert.AdaLN.Kernel

open Idealize.ShloMosaic Idealize.ShloMosaic.TcCoe Idealize.ShloMosaic.ValueIdx
open Cert.KernelIdeal Cert.KernelIdeal.Gen Cert.AdaLN

variable {A B : Nat}

/-- A row [1, B] broadcast down A rows holds at (p, q) the row's entry (0, q). -/
theorem bcastRowOf_apply {α : Type} (y : (⟨2, ![1, B]⟩ : Shape).Idx → α)
    (hb : (⟨2, ![1, B]⟩ : Shape).Broadcasts ⟨2, ![A, B]⟩) (p : Fin A) (q : Fin B) :
    broadcastTo ⟨2, ![A, B]⟩ y hb (ix2 p q) = y (ix2 (0 : Fin 1) q) := by
  refine broadcastTo_apply y hb (ix2 p q) (ix2 (0 : Fin 1) q) ?_
  intro a
  match a with
  | ⟨0, _⟩ => simp
  | ⟨1, _⟩ =>
    show q.val = if B = 1 then 0 else q.val
    split
    · have := q.isLt; omega
    · rfl

/-- The first normalisation is the generic row normalisation at 768 columns. -/
theorem pay2_eq (x0 : Vec Ideal S512x768 .f32) :
    k0_pay2 (F := Ideal) x0 = kernelNorm x0 0x44400000#32 0x3727C5AC#32 Facts₀.reduces_S512x768_S512 (.inl rfl) rfl
      Facts₀.shapeCasts_S512_S512x1 Facts₀.broadcasts_S512x1_S512x768 := by
  unfold k0_pay2 kernelNorm
  simp only [shapeCast_self]

/-- The normalised first block at (p, q). -/
theorem pay2_apply (x0 : Vec Ideal S512x768 .f32) (p : Fin 512) (q : Fin 768) :
    k0_pay2 (F := Ideal) x0 (ix2 p q) = normR c768 cEps (fun k => x0 (ix2 p k)) q := by
  rw [pay2_eq]
  exact kernelNorm_apply x0 _ _ _ _ _ _ _ p q

/-- The scaled, normalised second block at (p, k). -/
theorem pay3_apply (x1 : Vec Ideal S512x384 .f32) (x2 : Vec Ideal S1x384 .f32) (p : Fin 512) (k : Fin 384) :
    k0_pay3 (F := Ideal) x1 x2 (ix2 p k)
      = scaledR c384 cEps (fun k => x1 (ix2 p k)) (fun k => x2 (ix2 (0 : Fin 1) k)) k := by
  have e : k0_pay3 (F := Ideal) x1 x2
      = truncf .bf16 (mulf (kernelNorm x1 0x43C00000#32 0x3727C5AC#32 Facts₀.reduces_S512x384_S512 (.inl rfl) rfl
          Facts₀.shapeCasts_S512_S512x1 Facts₀.broadcasts_S512x1_S512x384) (broadcastTo S512x384 x2 Facts₀.broadcasts_S1x384_S512x384)) Facts₀.bitsLt_bf16_f32 := by
    unfold k0_pay3 kernelNorm
    simp only [shapeCast_self]
  rw [e, truncf_apply, mulf_apply]
  unfold scaledR
  exact congrArg₂ (fun a b : EReal => a * b) (kernelNorm_apply x1 _ _ _ _ _ _ _ p k) (bcastRowOf_apply x2 _ p k)

/-- The stored payload at (p, q), from the normalised first block, the scaled second block and the three small operands. -/
theorem pay1_apply (v17 : FVec Ideal S512x768 .f32) (v40 : FVec Ideal S512x384 .bf16) (v41 : Vec Ideal S384x768 .bf16)
    (v44 : Vec Ideal S1x768 .f32) (v49 : Vec Ideal S384x768 .bf16) (p : Fin 512) (q : Fin 768) :
    k0_pay1 (F := Ideal) v17 v40 v41 v44 v49 (ix2 p q)
      = v17 (ix2 p q) * Ideal.logistic ((∑ k : Fin 384, v40 (ix2 p k) * v41 (ix2 k q)) + v44 (ix2 (0 : Fin 1) q))
        + ∑ k : Fin 384, v40 (ix2 p k) * v49 (ix2 k q) := by
  unfold k0_pay1
  simp only [shapeCast_self]
  show v17 (ix2 p q) * Ideal.logistic (FloatOps.matmul (DotDims.plain 512 384 768) none v40 v41 (constant ⟨2, ![512, 768]⟩ .f32 0x00000000#32) (ix2 p q)
        + broadcastTo S512x768 v44 Facts₀.broadcasts_S1x768_S512x768 (ix2 p q))
      + FloatOps.matmul (DotDims.plain 512 384 768) none v40 v49 (constant ⟨2, ![512, 768]⟩ .f32 0x00000000#32) (ix2 p q) = _
  rw [Cert.Lib.Matmul.matmul_zero_apply, Cert.Lib.Matmul.matmul_zero_apply, bcastRowOf_apply]

/-- THE BODY'S RESULT at (p, q): the output entry of Spec.lean on row p of the two big blocks. -/
theorem body_apply (x0 : Vec Ideal S512x768 .f32) (x1 : Vec Ideal S512x384 .f32) (x2 : Vec Ideal S1x384 .f32)
    (x3 : Vec Ideal S384x768 .bf16) (x4 : Vec Ideal S1x768 .f32) (x5 : Vec Ideal S384x768 .bf16) (p : Fin 512) (q : Fin 768) :
    k0_pay1 (F := Ideal) (k0_pay2 x0) (k0_pay3 x1 x2) x3 x4 x5 (ix2 p q)
      = outR c768 c384 cEps (fun k => x0 (ix2 p k)) (fun k => x1 (ix2 p k)) (fun k => x2 (ix2 (0 : Fin 1) k))
          (fun j k => x3 (ix2 k j)) (fun j k => x5 (ix2 k j)) (fun j => x4 (ix2 (0 : Fin 1) j)) q := by
  rw [pay1_apply, pay2_apply]
  simp only [pay3_apply]
  rfl

end Cert.AdaLN.Kernel

end
-- ==== Proof.Flatten.lean ====
/-
  Three layout operations read at an entry (nothing here depends on a program).

  Flattening a [4, 8192, D] array to [32768, D] puts row (b, n) at row b·8192 + n, and the reshape back undoes it:
  both keep the row-major position.  The transpose of an [A, K] matrix holds at (k, j) the matrix's entry (j, k).
-/
import Idealize.ShloMosaic.Lib.ValueIdx
import Idealize.ShloMosaic.Lib.Pipeline.Value

noncomputable section

namespace Cert.AdaLN

open Idealize.ShloMosaic Idealize.ShloMosaic.ValueIdx

/-- The flattened array at (r, k), r = b·8192 + n, is the array at (b, n, k). -/
theorem flatten_apply {α : Type} {D : Nat} (x : (⟨3, ![4, 8192, D]⟩ : Shape).Idx → α)
    (h : (⟨3, ![4, 8192, D]⟩ : Shape).ShapeCasts ⟨2, ![32768, D]⟩) (b : Fin 4) (n : Fin 8192) (k : Fin D)
    (r : Fin 32768) (hr : r.val = b.val * 8192 + n.val) :
    shapeCast ⟨2, ![32768, D]⟩ x h (ix2 r k) = x (ix3 b n k) := by
  refine shapeCast_apply x h (ix2 r k) (ix3 b n k) ?_
  rw [Shape.rowMajor_val_three, Shape.rowMajor_val_two]
  show (b.val * 8192 + n.val) * D + k.val = r.val * D + k.val
  rw [hr]

/-- The array reshaped back at (b, n, k) is the flat array at (r, k), r = b·8192 + n. -/
theorem unflatten_apply {α : Type} {D : Nat} (y : (⟨2, ![32768, D]⟩ : Shape).Idx → α)
    (h : (⟨2, ![32768, D]⟩ : Shape).ShapeCasts ⟨3, ![4, 8192, D]⟩) (b : Fin 4) (n : Fin 8192) (k : Fin D)
    (r : Fin 32768) (hr : r.val = b.val * 8192 + n.val) :
    shapeCast ⟨3, ![4, 8192, D]⟩ y h (ix3 b n k) = y (ix2 r k) := by
  refine shapeCast_apply y h (ix3 b n k) (ix2 r k) ?_
  rw [Shape.rowMajor_val_three, Shape.rowMajor_val_two]
  show r.val * D + k.val = (b.val * 8192 + n.val) * D + k.val
  rw [hr]

/-- The transposed matrix at (k, j) is the matrix at (j, k). -/
theorem transposed_apply {α : Type} {A K : Nat} (w : (⟨2, ![A, K]⟩ : Shape).Idx → α)
    (h : (⟨2, ![A, K]⟩ : Shape).Transposes [1, 0] ⟨2, ![K, A]⟩) (k : Fin K) (j : Fin A) :
    transpose ⟨2, ![K, A]⟩ [1, 0] w h (ix2 k j) = w (ix2 j k) := by
  refine transpose_apply [1, 0] w h (ix2 k j) (ix2 j k) ?_
  intro b
  match b with
  | ⟨0, _⟩ => rfl
  | ⟨1, _⟩ => rfl

end Cert.AdaLN

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.KernelValue.lean ====
/-
  What the kernel program leaves in its result, as one function of the six argument arrays.

  The program flattens the two big arrays to [32768, 768] and [32768, 384], reshapes the scale and the bias to
  one row each, transposes the two weight matrices to [384, 768], runs the body over 64 blocks of 512 rows,
  and reshapes the [32768, 768] output back to [4, 8192, 768].  Block t of the output holds, at (p, q), the
  body's result on rows t·512 + p of the two flattened arrays; the 64 blocks tile the output; and row
  b·8192 + n of a flattened array is row (b, n) of the array.  So the result is `resultR` of the arguments.
-/
import proofs.«129126_j86371792322640_1_alg».proof.Proof.Gen.KernelIdeal.Frame
import proofs.«129126_j86371792322640_1_alg».proof.Proof.Payload
import proofs.«129126_j86371792322640_1_alg».proof.Proof.Flatten
import proofs.«129126_j86371792322640_1_alg».proof.Proof.LibLayout
import Idealize.ShloMosaic.Lib.Pipeline.Value
import Idealize.ShloMosaic.Lib.StableHlo.Run
import Idealize.ShloMosaic.PureOps.Ideal.Laws

set_option maxRecDepth 16384

noncomputable section

open scoped BigOperators

namespace Cert.AdaLN.Kernel

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.AdaLN

variable (m : (ℓ : Loc nD τ sig) → Buf (Elt Ideal) ℓ) (ρ : Dev nD → PrngReg)

/-! ## The arrays as the region finds them -/

theorem V_v0 (c : Dev nD) : (V m c main_v0 : S32768x768.Idx → EReal)
    = shapeCast S32768x768 (m ((c : Thread nD τ).loc main_arg0)) Facts₀.shapeCasts_S4x8192x768_S32768x768 := by
  show StableHlo.after hostOps0 (fun b => m (c, b)) (Proc.devRef .tc main_v0) = _
  after_results
  rfl

theorem V_v1 (c : Dev nD) : (V m c main_v1 : S32768x384.Idx → EReal)
    = shapeCast S32768x384 (m ((c : Thread nD τ).loc main_arg1)) Facts₀.shapeCasts_S4x8192x384_S32768x384 := by
  show StableHlo.after hostOps0 (fun b => m (c, b)) (Proc.devRef .tc main_v1) = _
  after_results
  rfl

theorem V_v2 (c : Dev nD) : (V m c main_v2 : S1x384.Idx → EReal)
    = shapeCast S1x384 (m ((c : Thread nD τ).loc main_arg2)) Facts₀.shapeCasts_S384_S1x384 := by
  show StableHlo.after hostOps0 (fun b => m (c, b)) (Proc.devRef .tc main_v2) = _
  after_results
  rfl

theorem V_v3 (c : Dev nD) : (V m c main_v3 : S1x768.Idx → EReal)
    = shapeCast S1x768 (m ((c : Thread nD τ).loc main_arg4)) Facts₀.shapeCasts_S768_S1x768 := by
  show StableHlo.after hostOps0 (fun b => m (c, b)) (Proc.devRef .tc main_v3) = _
  after_results
  rfl

theorem V_v5 (c : Dev nD) : (V m c main_v5 : S384x768.Idx → EReal)
    = transpose S384x768 [1, 0] (m ((c : Thread nD τ).loc main_arg3)) Facts₀.transposes_S768x384_S384x768_1_0 := by
  show StableHlo.after hostOps0 (fun b => m (c, b)) (Proc.devRef .tc main_v5) = _
  after_results
  rfl

theorem V_v7 (c : Dev nD) : (V m c main_v7 : S384x768.Idx → EReal)
    = transpose S384x768 [1, 0] (m ((c : Thread nD τ).loc main_arg5)) Facts₀.transposes_S768x384_S384x768_1_0 := by
  show StableHlo.after hostOps0 (fun b => m (c, b)) (Proc.devRef .tc main_v7) = _
  after_results
  rfl

/-! ## One block of the output -/

/-- What the output array [32768, 768] ends holding, from the arrays the region finds: entry (r, q) is the
    output entry of Spec.lean on rows r of the two flattened arrays. -/
def flat (A0 : S32768x768.Idx → EReal) (A1 : S32768x384.Idx → EReal) (A2 : S1x384.Idx → EReal)
    (A3 : S384x768.Idx → EReal) (A4 : S1x768.Idx → EReal) (A5 : S384x768.Idx → EReal) : S32768x768.Idx → EReal :=
  fun i => outR c768 c384 cEps (fun k => A0 (ix2 (i 0) k)) (fun k => A1 (ix2 (i 0) k)) (fun k => A2 (ix2 (0 : Fin 1) k))
    (fun j k => A3 (ix2 k j)) (fun j k => A5 (ix2 k j)) (fun j => A4 (ix2 (0 : Fin 1) j)) (i 1)

/-- The output entry depends on its rows and small operands only through their values. -/
theorem outR_congr {f0 g0 : Fin 768 → EReal} {f1 g1 f2 g2 : Fin 384 → EReal} {f3 g3 f5 g5 : Fin 768 → Fin 384 → EReal}
    {f4 g4 : Fin 768 → EReal} {q q' : Fin 768} (h0 : f0 = g0) (h1 : f1 = g1) (h2 : f2 = g2) (h3 : f3 = g3) (h5 : f5 = g5)
    (h4 : f4 = g4) (hq : q = q') :
    outR c768 c384 cEps f0 f1 f2 f3 f5 f4 q = outR c768 c384 cEps g0 g1 g2 g3 g5 g4 q' := by
  subst h0 h1 h2 h3 h5 h4 hq; rfl

theorem zeros2 : (![0, 0] : Fin 2 → Nat) = fun _ => 0 := funext fun a => by fin_cases a <;> rfl

/-- The printed index maps over the grid: the two big inputs and the output are at block (t, 0), the four small
    operands at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT t WRITES BACK is block t of `flat` of the arrays the region finds. -/
theorem flushed_eq (c : Dev nD) (t : Fin cfg0.N) :
    (dats m 0 c).flushed 6 t = ((cfg0.win 6).blk t).view.read (Elt Ideal)
      (flat (V m c main_v0) (V m c main_v1) (V m c main_v2) (V m c main_v5) (V m c main_v3) (V m c main_v7)) := by
  show (cfg0.win 6).cut (grid0.coords t) ((dats m 0 c).after 6 t) = _
  rw [after0_6]
  unfold out0_6
  rw [View.canon_unit_zero zeros2]
  simp only [View.ld_unit_zero (S := S512x768) zeros2, View.ld_unit_zero (S := S512x384) zeros2,
    View.ld_unit_zero (S := S1x384) zeros2, View.ld_unit_zero (S := S384x768) zeros2, View.ld_unit_zero (S := S1x768) zeros2]
  obtain ⟨e00, e01, e10, e11, e20, e21, e30, e31, e40, e41, e50, e51, e60, e61⟩ := idx_facts t
  funext j
  obtain ⟨p, q, rfl⟩ : ∃ (p : Fin 512) (q : Fin 768), j = ix2 p q := ⟨j 0, j 1, eq_ix2 j⟩
  show k0_pay1 (F := Ideal) (k0_pay2 (iblk m c 0 t)) (k0_pay3 (iblk m c 1 t) (iblk m c 2 t)) (iblk m c 3 t) (iblk m c 4 t)
      (iblk m c 5 t) (ix2 p q)
    = flat (V m c main_v0) (V m c main_v1) (V m c main_v2) (V m c main_v5) (V m c main_v3) (V m c main_v7)
        (((cfg0.win 6).blk t).view.emb (ix2 p q))
  refine (body_apply (iblk m c 0 t) (iblk m c 1 t) (iblk m c 2 t) (iblk m c 3 t) (iblk m c 4 t) (iblk m c 5 t) p q).trans ?_
  unfold flat
  refine outR_congr (funext fun k => ?_) (funext fun k => ?_) (funext fun k => ?_) (funext fun j => funext fun k => ?_)
    (funext fun j => funext fun k => ?_) (funext fun j => ?_) ?_
  · show V m c main_v0 (((cfg0.win 0).blk t).view.emb (ix2 p k)) = V m c main_v0 (ix2 ((((cfg0.win 6).blk t).view.emb (ix2 p q)) 0) k)
    refine congrArg (V m c main_v0) (funext fun a => Fin.ext ?_)
    match a with
    | ⟨0, _⟩ => show win0_0.index t (0 : Fin 2) * 512 + 1 * p.val = win0_6.index t (0 : Fin 2) * 512 + 1 * p.val; omega
    | ⟨1, _⟩ => show win0_0.index t (1 : Fin 2) * 768 + 1 * k.val = k.val; omega
  · show V m c main_v1 (((cfg0.win 1).blk t).view.emb (ix2 p k)) = V m c main_v1 (ix2 ((((cfg0.win 6).blk t).view.emb (ix2 p q)) 0) k)
    refine congrArg (V m c main_v1) (funext fun a => Fin.ext ?_)
    match a with
    | ⟨0, _⟩ => show win0_1.index t (0 : Fin 2) * 512 + 1 * p.val = win0_6.index t (0 : Fin 2) * 512 + 1 * p.val; omega
    | ⟨1, _⟩ => show win0_1.index t (1 : Fin 2) * 384 + 1 * k.val = k.val; omega
  · show V m c main_v2 (((cfg0.win 2).blk t).view.emb (ix2 (0 : Fin 1) k)) = V m c main_v2 (ix2 (0 : Fin 1) k)
    refine congrArg (V m c main_v2) (funext fun a => Fin.ext ?_)
    match a with
    | ⟨0, _⟩ => show win0_2.index t (0 : Fin 2) * 1 + 1 * 0 = 0; omega
    | ⟨1, _⟩ => show win0_2.index t (1 : Fin 2) * 384 + 1 * k.val = k.val; omega
  · show V m c main_v5 (((cfg0.win 3).blk t).view.emb (ix2 k j)) = V m c main_v5 (ix2 k j)
    refine congrArg (V m c main_v5) (funext fun a => Fin.ext ?_)
    match a with
    | ⟨0, _⟩ => show win0_3.index t (0 : Fin 2) * 384 + 1 * k.val = k.val; omega
    | ⟨1, _⟩ => show win0_3.index t (1 : Fin 2) * 768 + 1 * j.val = j.val; omega
  · show V m c main_v7 (((cfg0.win 5).blk t).view.emb (ix2 k j)) = V m c main_v7 (ix2 k j)
    refine congrArg (V m c main_v7) (funext fun a => Fin.ext ?_)
    match a with
    | ⟨0, _⟩ => show win0_5.index t (0 : Fin 2) * 384 + 1 * k.val = k.val; omega
    | ⟨1, _⟩ => show win0_5.index t (1 : Fin 2) * 768 + 1 * j.val = j.val; omega
  · show V m c main_v3 (((cfg0.win 4).blk t).view.emb (ix2 (0 : Fin 1) j)) = V m c main_v3 (ix2 (0 : Fin 1) j)
    refine congrArg (V m c main_v3) (funext fun a => Fin.ext ?_)
    match a with
    | ⟨0, _⟩ => show win0_4.index t (0 : Fin 2) * 1 + 1 * 0 = 0; omega
    | ⟨1, _⟩ => show win0_4.index t (1 : Fin 2) * 768 + 1 * j.val = j.val; omega
  · refine Fin.ext ?_
    show q.val = win0_6.index t (1 : Fin 2) * 768 + 1 * q.val
    omega

/-! ## The output array after the run -/

/-- An index of the output array is in point t's block iff each coordinate is in the block's range. -/
theorem mem_blk (t : Fin cfg0.N) (i : S32768x768.Idx) :
    i ∈ ((cfg0.win 6).blk t).view.set ↔ ∀ a : Fin 2, win0_6.index t a * S512x768.size a ≤ (i a).val
      ∧ (i a).val < win0_6.index t a * S512x768.size a + S512x768.size a := by
  show i ∈ ((View.whole main_v8).slice (win0_6.rect t)).set ↔ _
  rw [View.set_slice_whole, Rect.mem_set_unit]
  exact Iff.rfl

/-- Every one of the 64 row blocks is some point's. -/
theorem idx_onto : ∀ r : Fin 64, ∃ t : Fin cfg0.N, win0_6.index t = ![r.val, 0] :=
  (by decide +kernel : ∀ r : Fin 64, ∃ t : Fin grid0.N, win0_6.index t = ![r.val, 0])

/-- The 64 blocks of 512 rows cover the 32768 rows. -/
theorem cover (i : S32768x768.Idx) :
    ∃ t : Fin cfg0.N, (cfg0.win 6).flush t = true ∧ i ∈ ((cfg0.win 6).blk t).view.set := by
  have hi0 : (i 0).val < 32768 := (i 0).isLt
  have hi1 : (i 1).val < 768 := (i 1).isLt
  obtain ⟨t, ht⟩ := idx_onto ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 768 ≤ (i 1).val ∧ (i 1).val < win0_6.index t (1 : Fin 2) * 768 + 768; omega

/-- THE OUTPUT ARRAY after the run is `flat` of the arrays the region finds. -/
theorem final (c : Dev nD) : (dats m 0 c).arrAt 6 cfg0.N
    = flat (V m c main_v0) (V m c main_v1) (V m c main_v2) (V m c main_v5) (V m c main_v3) (V m c main_v7) :=
  (dats m 0 c).arrAt_eq_of_cover 6 _ (fun t _ => flushed_eq m c t) cover

/-- The reshape after the region reads the output array. -/
theorem tail_eq (c : Dev nD) : (Pipeline.afterTail₀ cfgs (dats m) 0 (V0 m) [hostOps1] c main_v9 : S4x8192x768.Idx → EReal)
    = shapeCast S4x8192x768 ((dats m 0 c).arrAt 6 cfg0.N) Facts₀.shapeCasts_S32768x768_S4x8192x768 := by
  unfold Pipeline.afterTail₀
  show StableHlo.after hostOps1 _ (Proc.devRef .tc main_v9) = _
  after_results
  have e := Pipeline.withArrays_arr spec0 launch0.win.arr_inj c (V0 m c) (fun w => (dats m 0 c).arrAt w (cfgs 0).N) (6 : Fin 7)
  refine (?_ : _ = shapeCast S4x8192x768 (Pipeline.withArrays (cfgs 0).spec c (V0 m c)
    (fun w => (dats m 0 c).arrAt w (cfgs 0).N) (Proc.devRef .tc main_v8)) Facts₀.shapeCasts_S32768x768_S4x8192x768).trans ?_
  · rfl
  · exact congrArg (fun X => shapeCast S4x8192x768 X Facts₀.shapeCasts_S32768x768_S4x8192x768) e

/-! ## The result -/

/-- THE RESULT of the program: the adaptive layer normalisation of the six arguments, reciprocal-root spelling. -/
theorem result_eq (c : Dev nD) : (Pipeline.afterTail₀ cfgs (dats m) 0 (V0 m) [hostOps1] c main_v9 : S4x8192x768.Idx → EReal)
    = resultR (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [tail_eq, final, V_v0, V_v1, V_v2, V_v3, V_v5, V_v7]
  funext i
  obtain ⟨b, n, j, rfl⟩ : ∃ (b : Fin 4) (n : Fin 8192) (j : Fin 768), i = ix3 b n j := ⟨i 0, i 1, i 2, eq_ix3 i⟩
  have hr : b.val * 8192 + n.val < 32768 := by have := b.isLt; have := n.isLt; omega
  rw [unflatten_apply _ _ b n j ⟨b.val * 8192 + n.val, hr⟩ rfl]
  unfold flat resultR
  refine outR_congr (funext fun k => ?_) (funext fun k => ?_) (funext fun k => ?_) (funext fun j' => funext fun k => ?_)
    (funext fun j' => funext fun k => ?_) (funext fun j' => ?_) rfl
  · exact flatten_apply _ _ b n k _ rfl
  · exact flatten_apply _ _ b n k _ rfl
  · exact Cert.Lib.Layout.rowCast_apply _ _ 0 k
  · exact transposed_apply _ _ k j'
  · exact transposed_apply _ _ k j'
  · exact Cert.Lib.Layout.rowCast_apply _ _ 0 j'

/-- THE KERNEL PROGRAM'S RUN: it terminates with the result at `resultR` of the arguments and the arguments unchanged. -/
theorem run : θ_run defs (onTc (τ := τ) (main (F := Ideal))) ⟨m, fun _ => 0, ρ⟩ fun r => ∀ c : Dev nD,
      r.2.mem ((c.tc : Thread nD τ).loc main_v9)
        = resultR (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.AdaLN.Kernel

end
-- ==== Proof.Finite.lean ====
/-
  Finiteness out of the precondition.

  The precondition is the conjunction of six tests, one per argument array: every entry x of the array has
  |x| < +∞, where |x| = max x (-x) on the extended reals and +∞ is the float word 0x7F800000.  Each test is
  a conjunction over all indices of the array (a reduction by "and" into a single truth value), and the six
  results are joined by "and" again.  When the whole is true, every one of the six is true, hence every
  entry of every array satisfies max x (-x) < ⊤.  An extended real with that property is neither ⊤ (where
  max ⊤ ⊥ = ⊤) nor ⊥ (where max ⊥ ⊤ = ⊤), so it is a real number.  Only the first two arrays' entries are
  recorded here.
-/
import proofs.«129126_j86371792322640_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

namespace Cert.AdaLN

open Idealize.ShloMosaic

/-- The shape with no axes has exactly one index. -/
instance : Subsingleton Cert.Pre_finite_inputs.S_.Idx := ⟨fun a b => funext fun d => d.elim0⟩

/-- The word 0x7F800000 (sign 0, exponent all ones, fraction 0) is +∞. -/
theorem word_inf : Ideal.ofBits .f32 0x7F800000#32 = (⊤ : EReal) := by
  simp [Ideal.ofBits, Ideal.ieee]

/-- A truth value written as a one-bit word is the word 1 only when it is true. -/
theorem true_of_ofBool_eq_one (b : Bool) : BitVec.ofBool b = 1#1 → b = true := by
  cases b <;> decide

/-- An extended real whose absolute value max x (-x) is below ⊤ is a real: at ⊥ the maximum is -⊥ = ⊤, at ⊤
    it is ⊤ itself. -/
theorem real_of_abs_lt_top (x : EReal) (h : max x (-x) < ⊤) : ∃ r : ℝ, x = (r : EReal) := by
  induction x using EReal.rec with
  | bot => simp at h
  | coe r => exact ⟨r, rfl⟩
  | top => simp at h

/-- The element test |x| < +∞, read back: the comparison being the word 1 says max x (-x) < ⊤. -/
theorem real_of_cmp (x : EReal)
    (e : Ideal.cmp .olt (max x (-x)) (Ideal.ofBits .f32 0x7F800000#32) = 1#1) : ∃ r : ℝ, x = (r : EReal) := by
  rw [word_inf] at e
  simp only [Ideal.cmp] at e
  exact real_of_abs_lt_top x (of_decide_eq_true (true_of_ofBool_eq_one _ e))

/-- Under the precondition every entry of the first and of the second argument array is a real number.
    The six-fold conjunction is split from the outside in (the last four tests are dropped), each of the two
    remaining tests gives its element fact at every index, and the element fact gives a real. -/
theorem real_of_pre (x0 : FVec Ideal Cert.Pre_finite_inputs.S4x8192x768 .f32)
    (x1 : FVec Ideal Cert.Pre_finite_inputs.S4x8192x384 .f32) (x2 : FVec Ideal Cert.Pre_finite_inputs.S384 .f32)
    (x3 : FVec Ideal Cert.Pre_finite_inputs.S768x384 .f32) (x4 : FVec Ideal Cert.Pre_finite_inputs.S768 .f32)
    (x5 : FVec Ideal Cert.Pre_finite_inputs.S768x384 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn, Cert.Pre_finite_inputs.fn_part1, andi] at h0
  -- ((((t0 ∧ t1) ∧ t2) ∧ t3) ∧ t4) ∧ t5: peel t5, t4, t3, t2, keep t0 and t1
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨ha, hb⟩ := IntOp.andi_eq_one.1 h0
  refine ⟨fun i => ?_, fun i => ?_⟩
  · exact real_of_cmp (x0 i) (Host.reduce_andi_all _ _ _ _ _ ha i)
  · exact real_of_cmp (x1 i) (Host.reduce_andi_all _ _ _ _ _ hb i)

end Cert.AdaLN
-- ==== Proof.lean ====
/-
  The adaptive layer normalisation kernel against its reference, over the extended reals.

  Both programs compute, for every row (b, n) of a [4, 8192, 768] and of s [4, 8192, 384],
      out[b, n, j] = norm(a[b, n, :])[j] · σ(Σ_k t[k] · wg[j, k] + bg[j]) + Σ_k t[k] · wb[j, k],   t = norm(s[b, n, :]) · lw,
  where norm x = (x - mean x) / sqrt (var x + ε) with the mean and the variance taken along the row.  The reference
  divides by the square root and expands the logistic σ(z) = 1 / (1 + exp (-z)); the kernel multiplies by the
  reciprocal square root, uses the logistic as one operation, works on the arrays flattened to 32768 rows in 64
  blocks of 512 rows, and on the weight matrices transposed.  At the ideal values a change of float format is the
  identity and a matrix product is a plain sum over the 384 shared coordinates, so the two differ only in the
  spelling of the normalisation, which agrees wherever var x + ε is a positive real: on rows of real numbers.
  The precondition (every input entry finite) gives exactly that for a and s.

  Spec.lean has the row mathematics and the law joining the spellings, Result.lean the whole result as a function
  of the six arrays, RefValue.lean the reference's run read as that function (quotient spelling), KernelValue.lean
  the kernel's run read as that function (reciprocal-root spelling) through KernelNorm.lean, Payload.lean and
  Flatten.lean, Finite.lean the real entries out of the precondition.  The three frames are the generated ones (the
  reference's is its generated run with the result dropped); the idealisation rewrote nothing, so `preserves` is
  trivial.
-/
import proofs.«129126_j86371792322640_1_alg».proof.Defs
import proofs.«129126_j86371792322640_1_alg».proof.Proof.Gen.Kernel
import proofs.«129126_j86371792322640_1_alg».proof.Proof.Gen.Kernel.Frame
import proofs.«129126_j86371792322640_1_alg».proof.Proof.Gen.KernelIdeal
import proofs.«129126_j86371792322640_1_alg».proof.Proof.Gen.KernelIdeal.Frame
import proofs.«129126_j86371792322640_1_alg».proof.Proof.Gen.ReferenceIdeal
import proofs.«129126_j86371792322640_1_alg».proof.Proof.Gen.Pre_finite_inputs
import proofs.«129126_j86371792322640_1_alg».proof.Proof.Gen.ReferenceIdeal.Run
import proofs.«129126_j86371792322640_1_alg».proof.Proof.Gen.ReferenceIdeal.Read
import proofs.«129126_j86371792322640_1_alg».proof.Proof.Result
import proofs.«129126_j86371792322640_1_alg».proof.Proof.RefValue
import proofs.«129126_j86371792322640_1_alg».proof.Proof.KernelValue
import proofs.«129126_j86371792322640_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories agreeing on the six arguments, all entries finite, both programs end at the same array: the kernel
    at the reciprocal-root spelling of the result, the reference at the quotient spelling, which agree on real rows. -/
theorem algebraic : Cert.algebraic_KernelIdeal_ReferenceIdeal := by
  intro m ρ m' ρ' hpre hagree
  refine ⟨_, Cert.AdaLN.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.AdaLN.Ref.val_eq, (hagree c).1, (hagree c).2.1, (hagree c).2.2.1,
    (hagree c).2.2.2.1, (hagree c).2.2.2.2.1, (hagree c).2.2.2.2.2]
  obtain ⟨ha, hs⟩ := Cert.AdaLN.real_of_pre _ _ _ _ _ _ (hpre c)
  exact (Cert.AdaLN.resultR_eq_resultQ _ _ _ _ _ _ ha hs).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
